-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_squared" .f32 0x179ABE15#32 ((5316911940649 / 5316911983139663491615228241121378304 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S64x128 : Shape := ⟨2, ![64, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x4096x128 .f32) (main_arg1 : FVec F S64x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x4096x128 : Shape := ⟨3, ![16, 4096, 128]⟩
abbrev S64x128 : Shape := ⟨2, ![64, 128]⟩
abbrev S4x4096x128 : Shape := ⟨3, ![4, 4096, 128]⟩
abbrev S16384x128 : Shape := ⟨2, ![16384, 128]⟩
abbrev S64 : Shape := ⟨1, ![64]⟩
abbrev S64x1 : Shape := ⟨2, ![64, 1]⟩
abbrev S128x128 : Shape := ⟨2, ![128, 128]⟩
abbrev S64x64 : Shape := ⟨2, ![64, 64]⟩
abbrev S128x64 : Shape := ⟨2, ![128, 64]⟩
abbrev S16384x64 : Shape := ⟨2, ![16384, 64]⟩

abbrev nBuf : Space → Nat
  | .hbm => 3
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .local _ .vmem, ⟨0, _⟩ => ⟨S4x4096x128, .f32⟩
  | .local _ .vmem, ⟨1, _⟩ => ⟨S4x4096x128, .f32⟩
  | .local _ .vmem, ⟨2, _⟩ => ⟨S64x128, .f32⟩
  | .local _ .vmem, ⟨3, _⟩ => ⟨S4x4096x128, .f32⟩
  | .local _ .vmem, ⟨4, _⟩ => ⟨S4x4096x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x4096x128_S4x4096x128_0_0_0 : ∀ a, (![0, 0, 0] : Fin 3 → Nat) a + S4x4096x128.size a ≤ S4x4096x128.size a
  h_S4x4096x128 : 0 < S4x4096x128.numel
  shapeCasts_S4x4096x128_S16384x128 : S4x4096x128.ShapeCasts S16384x128
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  transposes_S64x128_p1_0_S128x64 : S64x128.Transposes [1, 0] S128x64
  shapeCasts_S16384x128_S4x4096x128 : S16384x128.ShapeCasts S4x4096x128
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x64_S16384x64_1_0_0_1_n_n_wf : DotDims.WF S16384x64 S64x64 S16384x64 [1] [0] [0] [1] [] []
  dot_S16384x64_S64x128_S16384x128_1_0_0_1_n_n_wf : DotDims.WF S16384x64 S64x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x128.size a ≤ S16x4096x128.size a
  hwx0_0 : ∀ i : grid0.Coords, EltTy.bits .f32 = 32 ∨ (Rect.block (s := S16x4096x128) S4x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4096x128.size a ≤ S16x4096x128.size a
  hwx0_2 : ∀ i : grid0.Coords, EltTy.bits .f32 = 32 ∨ (Rect.block (s := S16x4096x128) S4x4096x128.size (cc0_transform_2 i) (hinb0_2 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

abbrev win0_0 : Pipeline.Window sig grid0 :=
  Pipeline.Window.ofSpec (Memref.whole main_arg0) S4x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S64x128 : Shape := ⟨2, ![64, 128]⟩
abbrev S_ : Shape := ⟨0, ![]⟩
abbrev S16x4096 : Shape := ⟨2, ![16, 4096]⟩
abbrev S16x4096x1 : Shape := ⟨3, ![16, 4096, 1]⟩
abbrev S65536x128 : Shape := ⟨2, ![65536, 128]⟩
abbrev S64 : Shape := ⟨1, ![64]⟩
abbrev S64x1 : Shape := ⟨2, ![64, 1]⟩
abbrev S128x64 : Shape := ⟨2, ![128, 64]⟩
abbrev S65536x64 : Shape := ⟨2, ![65536, 64]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x128, .f32⟩
  | .hbm, ⟨11, _⟩ => ⟨S16x4096x128, .f32⟩
  | .hbm, ⟨12, _⟩ => ⟨S65536x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S128x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x128, .f32⟩
  | .hbm, ⟨43, _⟩ => ⟨S65536x128, .f32⟩
  | .hbm, ⟨44, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  shapeCasts_S16x4096x128_S65536x128 : S16x4096x128.ShapeCasts S65536x128
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S_S65536x64 : S_.BroadcastsInDim S65536x64 (![] : Fin 0 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x128_S16x4096x128 : S65536x128.ShapeCasts S16x4096x128
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.Spec.lean ====
/- What both programs compute, row by row, on the extended reals.

   A token row x (128 entries) is divided by its Euclidean norm, floored at eps; every memory row is normalised the same way;
   the similarities of the row to the 64 normalised memory rows, divided by the temperature, are turned into softmax weights;
   the result is the normalised row plus the weighted sum of the normalised memory rows.

   The reference spells the row's normalisation as x / max(sqrt(sum x^2), eps), the similarities as a quotient by the temperature,
   and subtracts the row maximum under the exponential (refRow). The kernel spells the normalisation as
   x * rsqrt(max(sum x^2, eps^2)), multiplies by the reciprocal of the temperature, and subtracts that same reciprocal
   under the exponential (kerRow). -/
import Idealize.ShloMosaic.PureOps.Ideal
import Idealize.ShloMosaic.Lib.ValueIdx

noncomputable section

namespace Cert.Ema

open Idealize.ShloMosaic

/-- The norm floor eps, as both programs print it. -/
def eps : EReal := Ideal.ofBits .f32 0x2B8CBCCC#32
/-- The temperature, as the reference prints it. -/
def tau : EReal := Ideal.ofBits .f32 0x3D8F5C29#32
/-- The -inf a row maximum starts from, as the reference prints it. -/
def negInf : EReal := Ideal.ofBits .f32 0xFF800000#32
/-- The kernel's floor under the squared norm: the square of eps, exactly. -/
def epsSq : EReal := ((5316911940649 / 5316911983139663491615228241121378304 : ℝ) : EReal)
/-- The kernel's multiplier: the reciprocal of the temperature, exactly. -/
def invTau : EReal := ((134217728 / 9395241 : ℝ) : EReal)

/-- The Euclidean norm of a row, floored at eps. -/
def clipNorm {n : Nat} (r : Fin n → EReal) : EReal := max (Ideal.sqrt (∑ k, r k * r k)) eps

/-- A bank of rows, each divided by its floored norm. -/
def unitRows {a n : Nat} (mb : Fin a → Fin n → EReal) (j : Fin a) (k : Fin n) : EReal :=
  Ideal.div (mb j k) (clipNorm (mb j))

/-- The reference's normalised row. -/
def refUnit {n : Nat} (x : Fin n → EReal) (k : Fin n) : EReal := Ideal.div (x k) (clipNorm x)

/-- The kernel's normalised row. -/
def kerUnit {n : Nat} (x : Fin n → EReal) (k : Fin n) : EReal :=
  x k * Ideal.rsqrt (max (∑ k', x k' * x k') epsSq)

/-- The reference's similarities of a unit row to the bank, over the temperature. -/
def refSim {a n : Nat} (u : Fin n → EReal) (bank : Fin a → Fin n → EReal) (j : Fin a) : EReal :=
  Ideal.div (∑ k, u k * bank j k) tau

/-- The kernel's similarities: the same inner products times the reciprocal temperature. -/
def kerSim {a n : Nat} (u : Fin n → EReal) (bank : Fin a → Fin n → EReal) (j : Fin a) : EReal :=
  (∑ k, u k * bank j k) * invTau

/-- The reference's shift under the exponential: the row maximum (a fold from -inf, then once more against -inf). -/
def rowMax {a : Nat} (s : Fin a → EReal) : EReal := max negInf ((Finset.univ : Finset (Fin a)).fold max negInf s)

/-- Softmax weights with a given shift under the exponential. -/
def weights {a : Nat} (s : Fin a → EReal) (shift : EReal) (j : Fin a) : EReal :=
  Ideal.div (Ideal.exp (s j - shift)) (∑ j', Ideal.exp (s j' - shift))

/-- A unit row plus the bank's rows weighted. -/
def enhance {a n : Nat} (u : Fin n → EReal) (w : Fin a → EReal) (bank : Fin a → Fin n → EReal) (k : Fin n) : EReal :=
  u k + ∑ j, w j * bank j k

/-- One output row as the reference computes it. -/
def refRow {a n : Nat} (x : Fin n → EReal) (bank : Fin a → Fin n → EReal) (k : Fin n) : EReal :=
  enhance (refUnit x) (weights (refSim (refUnit x) bank) (rowMax (refSim (refUnit x) bank))) bank k

/-- One output row as the kernel computes it. -/
def kerRow {a n : Nat} (x : Fin n → EReal) (bank : Fin a → Fin n → EReal) (k : Fin n) : EReal :=
  enhance (kerUnit x) (weights (kerSim (kerUnit x) bank) invTau) bank k

/-- The whole result array, index by index, in the reference's spelling: entry (b, s, k) is entry k of the output row of
    token (b, s) against the normalised memory bank. -/
def result (x : (⟨3, ![16, 4096, 128]⟩ : Shape).Idx → EReal) (mb : (⟨2, ![64, 128]⟩ : Shape).Idx → EReal) :
    (⟨3, ![16, 4096, 128]⟩ : Shape).Idx → EReal :=
  fun i => refRow (fun k => x (ValueIdx.ix3 (i 0) (i 1) k)) (unitRows fun j k => mb (ValueIdx.ix2 j k)) (i 2)

/-- The same array in the kernel's spelling. -/
def kerResult (x : (⟨3, ![16, 4096, 128]⟩ : Shape).Idx → EReal) (mb : (⟨2, ![64, 128]⟩ : Shape).Idx → EReal) :
    (⟨3, ![16, 4096, 128]⟩ : Shape).Idx → EReal :=
  fun i => kerRow (fun k => x (ValueIdx.ix3 (i 0) (i 1) k)) (unitRows fun j k => mb (ValueIdx.ix2 j k)) (i 2)

end Cert.Ema

end
-- ==== Proof.Consts.lean ====
/- The float constants the two programs spell, as the extended reals their patterns denote: the norm floor
   eps = f32(1e-12), the temperature f32(0.07), the unit 1.0 of the ones matrices, and the -inf a row maximum starts from.
   One module states them all, so that the pattern decoder is unfolded in one place only. -/
import Idealize.ShloMosaic.PureOps.Ideal

noncomputable section

namespace Cert.Ema.Consts

open Idealize.ShloMosaic

/-- The norm floor: the pattern of f32(1e-12) is exactly 2305843 / 2^61. -/
theorem ofBits_eps : Ideal.ofBits .f32 0x2B8CBCCC#32 = ((2305843 / 2305843009213693952 : ℝ) : EReal) := by
  simp [Ideal.ofBits, Ideal.ieee, -EReal.coe_mul]; norm_num

/-- The temperature: the pattern of f32(0.07) is exactly 9395241 / 2^27. -/
theorem ofBits_tau : Ideal.ofBits .f32 0x3D8F5C29#32 = ((9395241 / 134217728 : ℝ) : EReal) := by
  simp [Ideal.ofBits, Ideal.ieee, -EReal.coe_mul]; norm_num

/-- 1.0 denotes 1. -/
theorem ofBits_one : Ideal.ofBits .f32 0x3F800000#32 = 1 := by
  simp [Ideal.ofBits, Ideal.ieee, -EReal.coe_mul]; norm_num

/-- +0.0 denotes 0. -/
theorem ofBits_zero : Ideal.ofBits .f32 0x00000000#32 = 0 := by
  simp [Ideal.ofBits, Ideal.ieee]

/-- The pattern 0xFF800000 denotes -inf, the bottom of the extended reals. -/
theorem ofBits_negInf : Ideal.ofBits .f32 0xFF800000#32 = ⊥ := by
  simp [Ideal.ofBits, Ideal.ieee]

end Cert.Ema.Consts

end
-- ==== Proof.KernelRow.lean ====
/- The kernel body's one stored value, read at an index of the block. -/
import proofs.«174589_g85598698209303_cont_9to1_m_192_12_alg».proof.Proof.Spec
import proofs.«174589_g85598698209303_cont_9to1_m_192_12_alg».proof.Proof.Consts
import proofs.«174589_g85598698209303_cont_9to1_m_192_12_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.Ema

open Idealize.ShloMosaic Idealize.ShloMosaic.ValueIdx Cert.KernelIdeal Cert.KernelIdeal.Gen

/-! ## The body's intermediate values, as functions of the values they are computed from -/

/-- The block reshaped to 16384 rows of 128 lanes. -/
def V1 (v0 : Vec Ideal S4x4096x128 .f32) : FVec Ideal S16384x128 .f32 :=
  shapeCast S16384x128 v0 shapeCasts_S4x4096x128_S16384x128

/-- The memory bank, each row divided by its Euclidean norm floored at eps. -/
def V10 (v2 : Vec Ideal S64x128 .f32) : FVec Ideal S64x128 .f32 :=
  divf v2 (broadcastTo S64x128 (maximumf (sqrt (shapeCast S64x1 (multiReduction .add [1] S64 (mulf v2 v2) 0x00000000#32 reduces_S64x128_S64 (.inl rfl) rfl) shapeCasts_S64_S64x1)) (broadcast S64x1 (Scalar.ofBits .f32 0x2B8CBCCC#32))) broadcasts_S64x1_S64x128)

/-- The rows times the reciprocal square root of their sum of squares floored at eps squared. -/
def V18 (v1 : FVec Ideal S16384x128 .f32) : FVec Ideal S16384x128 .f32 :=
  mulf v1 (rsqrt (maximumf (matmul dot_S16384x128_S128x128_S16384x128_1_0_0_1_n_n none (mulf v1 v1) (broadcast S128x128 (Scalar.ofBits .f32 0x3F800000#32)) (constant S16384x128 .f32 0x00000000#32)) (broadcast S16384x128 (Named.named κ "eps_squared" 0x179ABE15#32))))

/-- The exponentials of the similarities times the reciprocal temperature, less that reciprocal. -/
def V25 (v18 : FVec Ideal S16384x128 .f32) (v10 : FVec Ideal S64x128 .f32) : FVec Ideal S16384x64 .f32 :=
  exp (subf (mulf (matmul dot_S16384x128_S128x64_S16384x64_1_0_0_1_n_n none v18 (transpose S128x64 [1, 0] v10 transposes_S64x128_p1_0_S128x64) (constant S16384x64 .f32 0x00000000#32)) (broadcast S16384x64 (Named.named κ "inv_temperature" 0x41649249#32))) (broadcast S16384x64 (Named.named κ "inv_temperature" 0x41649249#32)))

/-- The exponentials divided by their row sums. -/
def V27 (v25 : FVec Ideal S16384x64 .f32) : FVec Ideal S16384x64 .f32 :=
  divf v25 (matmul dot_S16384x64_S64x64_S16384x64_1_0_0_1_n_n none v25 (broadcast S64x64 (Scalar.ofBits .f32 0x3F800000#32)) (constant S16384x64 .f32 0x00000000#32))

/-- The unit rows plus the weights times the normalised bank. -/
def V29 (v18 : FVec Ideal S16384x128 .f32) (v27 : FVec Ideal S16384x64 .f32) (v10 : FVec Ideal S64x128 .f32) : FVec Ideal S16384x128 .f32 :=
  addf v18 (matmul dot_S16384x64_S64x128_S16384x128_1_0_0_1_n_n none v27 v10 (constant S16384x128 .f32 0x00000000#32))

/-- The stored value is the composition of these, reshaped back to a block. -/
theorem pay_eq (v0 : Vec Ideal S4x4096x128 .f32) (v2 : Vec Ideal S64x128 .f32) :
    k0_pay1 (F := Ideal) v0 v2 = shapeCast S4x4096x128 (V29 (V18 (V1 v0)) (V27 (V25 (V18 (V1 v0)) (V10 v2))) (V10 v2)) shapeCasts_S16384x128_S4x4096x128 := rfl

/-! ## The four matrix products read at an index -/

theorem lhsA_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhsA_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhsA_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhsA_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl
/-- A product of a [16384, 128] by a [128, 128] matrix into zero, read at (r, c): the sum over the contracted coordinate. -/
theorem matA_apply (x : FVec Ideal S16384x128 .f32) (y : FVec Ideal S128x128 .f32) (r : Fin 16384) (c : Fin 128) :
    matmul (F := Ideal) dot_S16384x128_S128x128_S16384x128_1_0_0_1_n_n none x y (constant (F := Ideal) S16384x128 .f32 0x00000000#32) (ix2 r c)
      = ∑ k : Fin 128, x (ix2 r k) * y (ix2 k c) := by
  refine (Ideal.matmul_constant_zero_apply dot_S16384x128_S128x128_S16384x128_1_0_0_1_n_n none x y (ix2 r c)).trans ?_
  rw [← Equiv.sum_comp (ValueIdx.contrEquiv1 dot_S16384x128_S128x128_S16384x128_1_0_0_1_n_n 128 rfl rfl).symm]
  refine Finset.sum_congr rfl fun k _ => ?_
  have hk := ValueIdx.contrEquiv1_symm_val dot_S16384x128_S128x128_S16384x128_1_0_0_1_n_n 128 rfl rfl k
  have el : dot_S16384x128_S128x128_S16384x128_1_0_0_1_n_n.lhsIdx (ix2 r c) ((ValueIdx.contrEquiv1 dot_S16384x128_S128x128_S16384x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S16384x128_S128x128_S16384x128_1_0_0_1_n_n.rhsIdx (ix2 r c) ((ValueIdx.contrEquiv1 dot_S16384x128_S128x128_S16384x128_1_0_0_1_n_n 128 rfl rfl).symm k) = ix2 k c := funext fun a => Fin.ext (by
    match a with
    | ⟨0, _⟩ => exact (rhsA_0 _ _).trans hk
    | ⟨1, _⟩ => exact rhsA_1 _ _)
  rw [el, er]

theorem lhsB_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
theorem lhsB_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
theorem rhsB_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
theorem rhsB_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl
/-- A product of a [16384, 128] by a [128, 64] matrix into zero, read at (r, c): the sum over the contracted coordinate. -/
theorem matB_apply (x : FVec Ideal S16384x128 .f32) (y : FVec Ideal S128x64 .f32) (r : Fin 16384) (c : Fin 64) :
    matmul (F := Ideal) dot_S16384x128_S128x64_S16384x64_1_0_0_1_n_n none x y (constant (F := Ideal) S16384x64 .f32 0x00000000#32) (ix2 r c)
      = ∑ k : Fin 128, x (ix2 r k) * y (ix2 k c) := by
  refine (Ideal.matmul_constant_zero_apply dot_S16384x128_S128x64_S16384x64_1_0_0_1_n_n none x y (ix2 r c)).trans ?_
  rw [← Equiv.sum_comp (ValueIdx.contrEquiv1 dot_S16384x128_S128x64_S16384x64_1_0_0_1_n_n 128 rfl rfl).symm]
  refine Finset.sum_congr rfl fun k _ => ?_
  have hk := ValueIdx.contrEquiv1_symm_val dot_S16384x128_S128x64_S16384x64_1_0_0_1_n_n 128 rfl rfl k
  have el : dot_S16384x128_S128x64_S16384x64_1_0_0_1_n_n.lhsIdx (ix2 r c) ((ValueIdx.contrEquiv1 dot_S16384x128_S128x64_S16384x64_1_0_0_1_n_n 128 rfl rfl).symm k) = ix2 r k := funext fun a => Fin.ext (by
    match a with
    | ⟨0, _⟩ => exact lhsB_0 _ _
    | ⟨1, _⟩ => exact (lhsB_1 _ _).trans hk)
  have er : dot_S16384x128_S128x64_S16384x64_1_0_0_1_n_n.rhsIdx (ix2 r c) ((ValueIdx.contrEquiv1 dot_S16384x128_S128x64_S16384x64_1_0_0_1_n_n 128 rfl rfl).symm k) = ix2 k c := funext fun a => Fin.ext (by
    match a with
    | ⟨0, _⟩ => exact (rhsB_0 _ _).trans hk
    | ⟨1, _⟩ => exact rhsB_1 _ _)
  rw [el, er]

theorem lhsC_0 (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem lhsC_1 (i : S16384x64.Idx) (q : dot_S16384x64_S64x64_S16384x64_1_0_0_1_n_n.contr.Idx) :
    (dot_S16384x64_S64x64_S16384x64_1_0_0_1_n_n.lhsIdx i q 1).val = (q ⟨0, by decide⟩).val :=
  dot_S16384x64_S64x64_S16384x64_1_0_0_1_n_n.lhsIdx_val_of_single rfl i q
theorem rhsC_0 (i : S16384x64.Idx) (q : dot_S16384x64_S64x64_S16384x64_1_0_0_1_n_n.contr.Idx) :
    (dot_S16384x64_S64x64_S16384x64_1_0_0_1_n_n.rhsIdx i q 0).val = (q ⟨0, by decide⟩).val :=
  dot_S16384x64_S64x64_S16384x64_1_0_0_1_n_n.rhsIdx_val_of_single rfl i q
theorem rhsC_1 (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl
/-- A product of a [16384, 64] by a [64, 64] matrix into zero, read at (r, c): the sum over the contracted coordinate. -/
theorem matC_apply (x : FVec Ideal S16384x64 .f32) (y : FVec Ideal S64x64 .f32) (r : Fin 16384) (c : Fin 64) :
    matmul (F := Ideal) dot_S16384x64_S64x64_S16384x64_1_0_0_1_n_n none x y (constant (F := Ideal) S16384x64 .f32 0x00000000#32) (ix2 r c)
      = ∑ k : Fin 64, x (ix2 r k) * y (ix2 k c) := by
  refine (Ideal.matmul_constant_zero_apply dot_S16384x64_S64x64_S16384x64_1_0_0_1_n_n none x y (ix2 r c)).trans ?_
  rw [← Equiv.sum_comp (ValueIdx.contrEquiv1 dot_S16384x64_S64x64_S16384x64_1_0_0_1_n_n 64 rfl rfl).symm]
  refine Finset.sum_congr rfl fun k _ => ?_
  have hk := ValueIdx.contrEquiv1_symm_val dot_S16384x64_S64x64_S16384x64_1_0_0_1_n_n 64 rfl rfl k
  have el : dot_S16384x64_S64x64_S16384x64_1_0_0_1_n_n.lhsIdx (ix2 r c) ((ValueIdx.contrEquiv1 dot_S16384x64_S64x64_S16384x64_1_0_0_1_n_n 64 rfl rfl).symm k) = ix2 r k := funext fun a => Fin.ext (by
    match a with
    | ⟨0, _⟩ => exact lhsC_0 _ _
    | ⟨1, _⟩ => exact (lhsC_1 _ _).trans hk)
  have er : dot_S16384x64_S64x64_S16384x64_1_0_0_1_n_n.rhsIdx (ix2 r c) ((ValueIdx.contrEquiv1 dot_S16384x64_S64x64_S16384x64_1_0_0_1_n_n 64 rfl rfl).symm k) = ix2 k c := funext fun a => Fin.ext (by
    match a with
    | ⟨0, _⟩ => exact (rhsC_0 _ _).trans hk
    | ⟨1, _⟩ => exact rhsC_1 _ _)
  rw [el, er]

theorem lhsD_0 (i : S16384x128.Idx) (q : dot_S16384x64_S64x128_S16384x128_1_0_0_1_n_n.contr.Idx) :
    (dot_S16384x64_S64x128_S16384x128_1_0_0_1_n_n.lhsIdx i q 0).val = (i 0).val := by
  unfold DotDims.lhsIdx
  rw [dif_neg (show ¬(0 : Fin S16384x64.rank) ∈ dot_S16384x64_S64x128_S16384x128_1_0_0_1_n_n.lhsBatch by decide), dif_pos (show (0 : Fin S16384x64.rank) ∈ dot_S16384x64_S64x128_S16384x128_1_0_0_1_n_n.lhsNonContracting by decide)]
  rfl
theorem lhsD_1 (i : S16384x128.Idx) (q : dot_S16384x64_S64x128_S16384x128_1_0_0_1_n_n.contr.Idx) :
    (dot_S16384x64_S64x128_S16384x128_1_0_0_1_n_n.lhsIdx i q 1).val = (q ⟨0, by decide⟩).val :=
  dot_S16384x64_S64x128_S16384x128_1_0_0_1_n_n.lhsIdx_val_of_single rfl i q
theorem rhsD_0 (i : S16384x128.Idx) (q : dot_S16384x64_S64x128_S16384x128_1_0_0_1_n_n.contr.Idx) :
    (dot_S16384x64_S64x128_S16384x128_1_0_0_1_n_n.rhsIdx i q 0).val = (q ⟨0, by decide⟩).val :=
  dot_S16384x64_S64x128_S16384x128_1_0_0_1_n_n.rhsIdx_val_of_single rfl i q
theorem rhsD_1 (i : S16384x128.Idx) (q : dot_S16384x64_S64x128_S16384x128_1_0_0_1_n_n.contr.Idx) :
    (dot_S16384x64_S64x128_S16384x128_1_0_0_1_n_n.rhsIdx i q 1).val = (i 1).val := by
  unfold DotDims.rhsIdx
  rw [dif_neg (show ¬(1 : Fin S64x128.rank) ∈ dot_S16384x64_S64x128_S16384x128_1_0_0_1_n_n.rhsBatch by decide), dif_pos (show (1 : Fin S64x128.rank) ∈ dot_S16384x64_S64x128_S16384x128_1_0_0_1_n_n.rhsNonContracting by decide)]
  rfl
/-- A product of a [16384, 64] by a [64, 128] matrix into zero, read at (r, c): the sum over the contracted coordinate. -/
theorem matD_apply (x : FVec Ideal S16384x64 .f32) (y : FVec Ideal S64x128 .f32) (r : Fin 16384) (c : Fin 128) :
    matmul (F := Ideal) dot_S16384x64_S64x128_S16384x128_1_0_0_1_n_n none x y (constant (F := Ideal) S16384x128 .f32 0x00000000#32) (ix2 r c)
      = ∑ k : Fin 64, x (ix2 r k) * y (ix2 k c) := by
  refine (Ideal.matmul_constant_zero_apply dot_S16384x64_S64x128_S16384x128_1_0_0_1_n_n none x y (ix2 r c)).trans ?_
  rw [← Equiv.sum_comp (ValueIdx.contrEquiv1 dot_S16384x64_S64x128_S16384x128_1_0_0_1_n_n 64 rfl rfl).symm]
  refine Finset.sum_congr rfl fun k _ => ?_
  have hk := ValueIdx.contrEquiv1_symm_val dot_S16384x64_S64x128_S16384x128_1_0_0_1_n_n 64 rfl rfl k
  have el : dot_S16384x64_S64x128_S16384x128_1_0_0_1_n_n.lhsIdx (ix2 r c) ((ValueIdx.contrEquiv1 dot_S16384x64_S64x128_S16384x128_1_0_0_1_n_n 64 rfl rfl).symm k) = ix2 r k := funext fun a => Fin.ext (by
    match a with
    | ⟨0, _⟩ => exact lhsD_0 _ _
    | ⟨1, _⟩ => exact (lhsD_1 _ _).trans hk)
  have er : dot_S16384x64_S64x128_S16384x128_1_0_0_1_n_n.rhsIdx (ix2 r c) ((ValueIdx.contrEquiv1 dot_S16384x64_S64x128_S16384x128_1_0_0_1_n_n 64 rfl rfl).symm k) = ix2 k c := funext fun a => Fin.ext (by
    match a with
    | ⟨0, _⟩ => exact (rhsD_0 _ _).trans hk
    | ⟨1, _⟩ => exact rhsD_1 _ _)
  rw [el, er]

/-! ## The reshapes, the column broadcast and the lane sum read at an index -/

/-- Row b * 4096 + s of the block reshaped to rows is token (b, s) of the block. -/
theorem V1_apply (v0 : Vec Ideal S4x4096x128 .f32) (b : Fin 4) (s : Fin 4096) (k : Fin 128) (r : Fin 16384)
    (hr : r.val = b.val * 4096 + s.val) : V1 v0 (ix2 r k) = v0 (ix3 b s k) := by
  unfold V1
  exact shapeCast_apply v0 shapeCasts_S4x4096x128_S16384x128 (ix2 r k) (ix3 b s k) (by
    rw [Shape.rowMajor_val_three, Shape.rowMajor_val_two]
    show (b.val * 4096 + s.val) * 128 + k.val = r.val * 128 + k.val
    rw [hr])

/-- The rows reshaped back to a block: token (b, s) is row b * 4096 + s. -/
theorem cast_back (y : FVec Ideal S16384x128 .f32) (b : Fin 4) (s : Fin 4096) (k : Fin 128) (r : Fin 16384)
    (hr : r.val = b.val * 4096 + s.val) :
    shapeCast S4x4096x128 y shapeCasts_S16384x128_S4x4096x128 (ix3 b s k) = y (ix2 r k) :=
  shapeCast_apply y shapeCasts_S16384x128_S4x4096x128 (ix3 b s k) (ix2 r k) (by
    rw [Shape.rowMajor_val_two, Shape.rowMajor_val_three]
    show r.val * 128 + k.val = (b.val * 4096 + s.val) * 128 + k.val
    rw [hr])

/-- A vector of 64 entries as a column reads its entry j at (j, 0). -/
theorem cast_col (x : FVec Ideal S64 .f32) (j : Fin 64) (z : Fin 1) :
    shapeCast S64x1 x shapeCasts_S64_S64x1 (ix2 j z) = x (ix1 j) :=
  shapeCast_apply x shapeCasts_S64_S64x1 (ix2 j z) (ix1 j) (by
    rw [Shape.rowMajor_val_one, Shape.rowMajor_val_two]
    show j.val = j.val * 1 + z.val
    have := z.isLt
    omega)

/-- A column broadcast along the lanes reads its entry (j, 0) at every (j, k). -/
theorem bcast_col (x : FVec Ideal S64x1 .f32) (j : Fin 64) (k : Fin 128) :
    broadcastTo S64x128 x broadcasts_S64x1_S64x128 (ix2 j k) = x (ix2 j (0 : Fin 1)) := by
  refine broadcastTo_apply x broadcasts_S64x1_S64x128 (ix2 j k) (ix2 j (0 : Fin 1)) fun ax => ?_
  match ax with
  | ⟨0, _⟩ =>
    show j.val = if (64 : Nat) = 1 then 0 else j.val
    rw [if_neg (by decide)]
  | ⟨1, _⟩ =>
    show 0 = if (1 : Nat) = 1 then 0 else k.val
    rw [if_pos rfl]

/-- The lane sum of a [64, 128] array at row j. -/
theorem rowsum_apply (x : FVec Ideal S64x128 .f32) (j : Fin 64) :
    multiReduction (F := Ideal) .add [1] S64 x 0x00000000#32 reduces_S64x128_S64 (.inl rfl) rfl (ix1 j)
      = ∑ k : Fin 128, x (ix2 j k) := by
  refine (Ideal.multiReduction_add_single x 0x00000000#32 reduces_S64x128_S64 (.inl rfl) rfl (ix1 j)).trans ?_
  refine Finset.sum_congr rfl fun k _ => congrArg x (funext fun a => Fin.ext ?_)
  match a with
  | ⟨0, _⟩ => rfl
  | ⟨1, _⟩ => rfl

/-- The memory bank normalised, entry by entry. -/
theorem V10_apply (v2 : Vec Ideal S64x128 .f32) (j : Fin 64) (k : Fin 128) :
    V10 v2 (ix2 j k) = unitRows (fun j k' => v2 (ix2 j k')) j k := by
  unfold V10 unitRows clipNorm eps
  show Ideal.div (v2 (ix2 j k)) (broadcastTo S64x128 _ broadcasts_S64x1_S64x128 (ix2 j k)) = _
  rw [bcast_col]
  show Ideal.div (v2 (ix2 j k)) (max (Ideal.sqrt (shapeCast S64x1 _ shapeCasts_S64_S64x1 (ix2 j (0 : Fin 1)))) (Ideal.ofBits .f32 0x2B8CBCCC#32)) = _
  rw [cast_col, rowsum_apply]
  rfl

/-! ## The intermediate values read at an index -/

/-- The floor under the squared norm is the named constant the body reads. -/
theorem named_epsSq : Named.named (F := Ideal) κ "eps_squared" (φ := .f32) 0x179ABE15#32 = epsSq := by
  unfold epsSq
  exact IdealRules.named_const.ideal_named_scalar _ _ _ _ rfl

/-- The reciprocal temperature is the named constant the body reads. -/
theorem named_invTau : Named.named (F := Ideal) κ "inv_temperature" (φ := .f32) 0x41649249#32 = invTau := by
  unfold invTau
  exact IdealRules.named_const.ideal_named_scalar _ _ _ _ rfl

/-- The rows normalised by the reciprocal square root of the floored sum of squares. -/
theorem V18_apply (v1 : FVec Ideal S16384x128 .f32) (r : Fin 16384) (c : Fin 128) :
    V18 v1 (ix2 r c) = kerUnit (fun k' => v1 (ix2 r k')) c := by
  unfold V18 kerUnit
  show v1 (ix2 r c) * Ideal.rsqrt (max (matmul (F := Ideal) dot_S16384x128_S128x128_S16384x128_1_0_0_1_n_n none (mulf v1 v1) (broadcast S128x128 (Scalar.ofBits .f32 0x3F800000#32)) (constant (F := Ideal) S16384x128 .f32 0x00000000#32) (ix2 r c)) (Named.named (F := Ideal) κ "eps_squared" (φ := .f32) 0x179ABE15#32)) = _
  rw [matA_apply, named_epsSq]
  refine congrArg (fun t => v1 (ix2 r c) * Ideal.rsqrt (max t epsSq)) (Finset.sum_congr rfl fun k _ => ?_)
  show v1 (ix2 r k) * v1 (ix2 r k) * Ideal.ofBits .f32 0x3F800000#32 = v1 (ix2 r k) * v1 (ix2 r k)
  rw [Consts.ofBits_one, mul_one]

/-- The exponentials of the shifted similarities. -/
theorem V25_apply (v18 : FVec Ideal S16384x128 .f32) (v10 : FVec Ideal S64x128 .f32) (r : Fin 16384) (j : Fin 64) :
    V25 v18 v10 (ix2 r j)
      = Ideal.exp (kerSim (fun k' => v18 (ix2 r k')) (fun j' k' => v10 (ix2 j' k')) j - invTau) := by
  unfold V25 kerSim
  show Ideal.exp (matmul (F := Ideal) dot_S16384x128_S128x64_S16384x64_1_0_0_1_n_n none v18 (transpose S128x64 [1, 0] v10 transposes_S64x128_p1_0_S128x64) (constant (F := Ideal) S16384x64 .f32 0x00000000#32) (ix2 r j) * Named.named (F := Ideal) κ "inv_temperature" (φ := .f32) 0x41649249#32 - Named.named (F := Ideal) κ "inv_temperature" (φ := .f32) 0x41649249#32) = _
  rw [matB_apply, named_invTau]
  refine congrArg (fun t => Ideal.exp (t * invTau - invTau)) (Finset.sum_congr rfl fun k _ => ?_)
  exact congrArg (v18 (ix2 r k) * ·) (transpose_ix2_apply v10 transposes_S64x128_p1_0_S128x64 k j)

/-- The exponentials over their row sum. -/
theorem V27_apply (v25 : FVec Ideal S16384x64 .f32) (r : Fin 16384) (j : Fin 64) :
    V27 v25 (ix2 r j) = Ideal.div (v25 (ix2 r j)) (∑ j' : Fin 64, v25 (ix2 r j')) := by
  unfold V27
  show Ideal.div (v25 (ix2 r j)) (matmul (F := Ideal) dot_S16384x64_S64x64_S16384x64_1_0_0_1_n_n none v25 (broadcast S64x64 (Scalar.ofBits .f32 0x3F800000#32)) (constant (F := Ideal) S16384x64 .f32 0x00000000#32) (ix2 r j)) = _
  rw [matC_apply]
  refine congrArg (Ideal.div (v25 (ix2 r j))) (Finset.sum_congr rfl fun k _ => ?_)
  show v25 (ix2 r k) * Ideal.ofBits .f32 0x3F800000#32 = v25 (ix2 r k)
  rw [Consts.ofBits_one, mul_one]

/-- The unit row plus the weighted bank rows. -/
theorem V29_apply (v18 : FVec Ideal S16384x128 .f32) (v27 : FVec Ideal S16384x64 .f32) (v10 : FVec Ideal S64x128 .f32)
    (r : Fin 16384) (k : Fin 128) :
    V29 v18 v27 v10 (ix2 r k) = v18 (ix2 r k) + ∑ j : Fin 64, v27 (ix2 r j) * v10 (ix2 j k) := by
  unfold V29
  show v18 (ix2 r k) + matmul (F := Ideal) dot_S16384x64_S64x128_S16384x128_1_0_0_1_n_n none v27 v10 (constant (F := Ideal) S16384x128 .f32 0x00000000#32) (ix2 r k) = _
  rw [matD_apply]

/-! ## The stored value read at an index -/

/-- Entry (b, s, k) of the value the body stores is entry k of the kernel's output row of token (b, s) of the block,
    against the block's memory bank normalised. -/
theorem pay_apply (v0 : Vec Ideal S4x4096x128 .f32) (v2 : Vec Ideal S64x128 .f32) (b : Fin 4) (s : Fin 4096) (k : Fin 128) :
    k0_pay1 (F := Ideal) v0 v2 (ix3 b s k)
      = kerRow (fun k' => v0 (ix3 b s k')) (unitRows fun j k' => v2 (ix2 j k')) k := by
  have hlt : b.val * 4096 + s.val < 16384 := by
    have := b.isLt
    have := s.isLt
    omega
  obtain ⟨r, hr⟩ : ∃ r : Fin 16384, r.val = b.val * 4096 + s.val := ⟨⟨b.val * 4096 + s.val, hlt⟩, rfl⟩
  rw [pay_eq, cast_back _ b s k r hr, V29_apply]
  have hU : (fun k' => V18 (V1 v0) (ix2 r k')) = kerUnit (fun k' => v0 (ix3 b s k')) := by
    funext k'
    rw [V18_apply]
    exact congrArg (fun f => kerUnit f k') (funext fun k'' => V1_apply v0 b s k'' r hr)
  have hB : (fun j' k' => V10 v2 (ix2 j' k')) = unitRows (fun j k' => v2 (ix2 j k')) := by
    funext j' k'
    exact V10_apply v2 j' k'
  have h25 : ∀ j : Fin 64, V25 (V18 (V1 v0)) (V10 v2) (ix2 r j)
      = Ideal.exp (kerSim (kerUnit (fun k' => v0 (ix3 b s k'))) (unitRows fun j k' => v2 (ix2 j k')) j - invTau) := by
    intro j
    rw [V25_apply, hU, hB]
  have hsum : ∑ j' : Fin 64, V25 (V18 (V1 v0)) (V10 v2) (ix2 r j')
      = ∑ j' : Fin 64, Ideal.exp (kerSim (kerUnit (fun k' => v0 (ix3 b s k'))) (unitRows fun j k' => v2 (ix2 j k')) j' - invTau) :=
    Finset.sum_congr rfl fun j' _ => h25 j'
  unfold kerRow enhance weights
  refine congrArg₂ (· + ·) (congrFun hU k) (Finset.sum_congr rfl fun j _ => ?_)
  rw [V27_apply, h25 j, hsum]
  exact congrArg (_ * ·) (congrFun (congrFun hB j) k)

end Cert.Ema

end
-- ==== Proof.KernelArray.lean ====
/- From blocks to the array. Grid point t stages batches 4t .. 4t+3 of the features (all 4096 tokens, all 128 lanes) and the whole
   memory bank, and writes back the same batches of the result; the four blocks tile the result array. So the array after the
   run is, index by index, the kernel's output row of the token the index names. -/
import proofs.«174589_g85598698209303_cont_9to1_m_192_12_alg».proof.Proof.KernelRow
import proofs.«174589_g85598698209303_cont_9to1_m_192_12_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Ema.KernelArray

open Cert.KernelIdeal Cert.KernelIdeal.Gen Cert.KernelIdeal.Value

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the features' and the result's block index is (t, 0, 0), the bank's (0, 0). -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Every batch group is some point's. -/
theorem idx_onto : ∀ q : Fin 4, ∃ t : Fin cfg0.N, t.val = q.val :=
  (by decide +kernel : ∀ q : Fin 4, ∃ t : Fin grid0.N, t.val = q.val)

/-- An entry of the features' block at point t is the entry of the features 4t batches further on. -/
theorem feat_apply (c : Dev nD) (t : Fin cfg0.N) (y : S4x4096x128.Idx) (i : S16x4096x128.Idx)
    (h0 : (i 0).val = 4 * t.val + (y 0).val) (h1 : (i 1).val = (y 1).val) (h2 : (i 2).val = (y 2).val) :
    (iblk m c 0 t : Vec Ideal S4x4096x128 .f32) y = (V m c main_arg0 : S16x4096x128.Idx → Elt Ideal .f32) i := by
  obtain ⟨e0, e1, e2, -, -, -, -, -⟩ := idx_facts t
  unfold iblk
  rw [View.read_apply]
  show V m c main_arg0 _ = V m c main_arg0 _
  congr 1
  funext a
  apply Fin.ext
  match a with
  | ⟨0, _⟩ => show win0_0.index t (0 : Fin 3) * 4 + 1 * (y 0).val = (i 0).val; rw [e0, h0]; omega
  | ⟨1, _⟩ => show win0_0.index t (1 : Fin 3) * 4096 + 1 * (y 1).val = (i 1).val; rw [e1, h1]; omega
  | ⟨2, _⟩ => show win0_0.index t (2 : Fin 3) * 128 + 1 * (y 2).val = (i 2).val; rw [e2, h2]; omega

/-- The bank's block at every point is the whole bank. -/
theorem bank_apply (c : Dev nD) (t : Fin cfg0.N) (y : S64x128.Idx) :
    (iblk m c 1 t : Vec Ideal S64x128 .f32) y = (V m c main_arg1 : S64x128.Idx → Elt Ideal .f32) y := by
  obtain ⟨-, -, -, e0, e1, -, -, -⟩ := idx_facts t
  unfold iblk
  rw [View.read_apply]
  show V m c main_arg1 _ = V m c main_arg1 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- What point t writes back is block t of the kernel's whole-array function of the argument arrays. -/
theorem flushed_eq (c : Dev nD) (t : Fin cfg0.N) :
    (dats m 0 c).flushed 2 t
      = ((cfg0.win 2).blk t).view.read (Elt Ideal) (Cert.Ema.kerResult (V m c main_arg0) (V m c main_arg1)) := by
  rw [flushed2]
  unfold out0_2
  rw [View.canon_unit_zero hz3]
  simp only [View.ld_unit_zero (S := S4x4096x128) hz3, View.ld_unit_zero (S := S64x128) hz2]
  funext y
  obtain ⟨b, s, k, rfl⟩ : ∃ (b : Fin 4) (s : Fin 4096) (k : Fin 128), y = ix3 b s k := ⟨y 0, y 1, y 2, eq_ix3 y⟩
  obtain ⟨-, -, -, -, -, e0, e1, e2⟩ := idx_facts t
  show k0_pay1 (F := Ideal) (iblk m c 0 t) (iblk m c 1 t) (ix3 b s k)
    = Cert.Ema.kerResult (V m c main_arg0) (V m c main_arg1) (((cfg0.win 2).blk t).view.emb (ix3 b s k))
  refine (Cert.Ema.pay_apply (iblk m c 0 t) (iblk m c 1 t) b s k).trans ?_
  -- the index the block's entry (b, s, k) lands on in the array
  have hI0 : ((((cfg0.win 2).blk t).view.emb (ix3 b s k)) 0).val = 4 * t.val + b.val := by
    show win0_2.index t (0 : Fin 3) * 4 + 1 * b.val = _; rw [e0]; omega
  have hI1 : ((((cfg0.win 2).blk t).view.emb (ix3 b s k)) 1).val = s.val := by
    show win0_2.index t (1 : Fin 3) * 4096 + 1 * s.val = _; rw [e1]; omega
  have hI2 : ((((cfg0.win 2).blk t).view.emb (ix3 b s k)) 2).val = k.val := by
    show win0_2.index t (2 : Fin 3) * 128 + 1 * k.val = _; rw [e2]; omega
  unfold Cert.Ema.kerResult
  have ex : (fun k' : Fin 128 => (iblk m c 0 t : Vec Ideal S4x4096x128 .f32) (ix3 b s k'))
      = fun k' : Fin 128 => (V m c main_arg0 : S16x4096x128.Idx → Elt Ideal .f32)
          (ix3 ((((cfg0.win 2).blk t).view.emb (ix3 b s k)) 0) ((((cfg0.win 2).blk t).view.emb (ix3 b s k)) 1) k') :=
    funext fun k' => feat_apply m c t (ix3 b s k') _ hI0 hI1 rfl
  have eb : (fun (j : Fin 64) (k' : Fin 128) => (iblk m c 1 t : Vec Ideal S64x128 .f32) (ix2 j k'))
      = fun (j : Fin 64) (k' : Fin 128) => (V m c main_arg1 : S64x128.Idx → Elt Ideal .f32) (ix2 j k') :=
    funext fun j => funext fun k' => bank_apply m c t (ix2 j k')
  have ek : k = ((((cfg0.win 2).blk t).view.emb (ix3 b s k)) 2) := Fin.ext hI2.symm
  exact (congrArg₂ (fun f g => Cert.Ema.kerRow f (Cert.Ema.unitRows g) k) ex eb).trans
    (congrArg (Cert.Ema.kerRow _ _) ek)

/-- An index of the array is in point t's block iff each coordinate is in the block's range on its axis. -/
theorem mem_blk (t : Fin cfg0.N) (i : S16x4096x128.Idx) :
    i ∈ ((cfg0.win 2).blk t).view.set ↔ ∀ a : Fin 3, win0_2.index t a * S4x4096x128.size a ≤ (i a).val ∧ (i a).val < win0_2.index t a * S4x4096x128.size a + S4x4096x128.size a := by
  show i ∈ ((View.whole main_v0).slice (win0_2.rect t)).set ↔ _
  rw [View.set_slice_whole, Rect.mem_set_unit]
  exact Iff.rfl

/-- The four blocks cover the array: batch q belongs to point q / 4. -/
theorem cover (i : S16x4096x128.Idx) : ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 128 := (i 2).isLt
  obtain ⟨t, ht⟩ := idx_onto ⟨(i 0).val / 4, by omega⟩
  have ht' : t.val = (i 0).val / 4 := ht
  obtain ⟨-, -, -, -, -, e0, e1, e2⟩ := idx_facts t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; rw [e0]; omega
  | ⟨1, _⟩ => show win0_2.index t (1 : Fin 3) * 4096 ≤ (i 1).val ∧ (i 1).val < win0_2.index t (1 : Fin 3) * 4096 + 4096; rw [e1]; omega
  | ⟨2, _⟩ => show win0_2.index t (2 : Fin 3) * 128 ≤ (i 2).val ∧ (i 2).val < win0_2.index t (2 : Fin 3) * 128 + 128; rw [e2]; omega

/-- So the result array ends holding the kernel's whole-array function of the argument arrays. -/
theorem final (c : Dev nD) :
    (dats m 0 c).arrAt 2 cfg0.N
      = Cert.Ema.kerResult (m ((c : Thread nD τ).loc main_arg0)) (m ((c : Thread nD τ).loc main_arg1)) :=
  (dats m 0 c).arrAt_eq_of_cover 2 (Cert.Ema.kerResult (V m c main_arg0) (V m c main_arg1))
    (fun t _ => flushed_eq m c t) cover

/-- The kernel's run, read: the result array at the kernel's function of the arguments, the arguments unchanged. -/
theorem run : θ_run defs (onTc (τ := τ) (main (F := Ideal))) ⟨m, fun _ => 0, ρ⟩ fun r => ∀ c : Dev nD,
      r.2.mem ((c : Thread nD τ).loc main_v0)
        = Cert.Ema.kerResult (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Ema.KernelArray

end
-- ==== Proof.RowMath.lean ====
/- The kernel's row and the reference's row are one function on finite inputs. -/
import proofs.«174589_g85598698209303_cont_9to1_m_192_12_alg».proof.Proof.Spec
import proofs.«174589_g85598698209303_cont_9to1_m_192_12_alg».proof.Proof.Consts
import Mathlib.Analysis.Real.Sqrt
import Mathlib.Analysis.SpecialFunctions.Exp
import Mathlib.Data.EReal.Inv
import Mathlib.Data.Finset.Fold

noncomputable section

namespace Cert.Ema

open Idealize.ShloMosaic

/-- The norm floor as a real number. -/
def epsR : ℝ := 2305843 / 2305843009213693952

/-- The temperature as a real number. -/
def tauR : ℝ := 9395241 / 134217728

theorem epsR_pos : 0 < epsR := by unfold epsR; norm_num

theorem tauR_pos : 0 < tauR := by unfold tauR; norm_num

theorem eps_eq : eps = (epsR : EReal) := by
  unfold eps epsR; exact Consts.ofBits_eps

theorem tau_eq : tau = (tauR : EReal) := by
  unfold tau tauR; exact Consts.ofBits_tau

theorem epsSq_eq : epsSq = ((epsR ^ 2 : ℝ) : EReal) := by
  unfold epsSq epsR; congr 1; norm_num

theorem invTau_eq : invTau = ((1 / tauR : ℝ) : EReal) := by
  unfold invTau tauR; congr 1; norm_num

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of products of coerced reals is the coercion of the real sum of products. -/
theorem sum_mul_coe {n : Nat} (f g : Fin n → ℝ) :
    (∑ k, (f k : EReal) * (g k : EReal)) = ((∑ k, f k * g k : ℝ) : EReal) := by
  rw [coe_sum]; simp only [EReal.coe_mul]

/-- The coercion commutes with the maximum. -/
theorem coe_max' (p q : ℝ) : ((max p q : ℝ) : EReal) = max (p : EReal) (q : EReal) :=
  EReal.coe_strictMono.monotone.map_max

/-- The floored Euclidean norm of a real row. -/
def cN {n : Nat} (r : Fin n → ℝ) : ℝ := max (Real.sqrt (∑ k, r k * r k)) epsR

theorem cN_pos {n : Nat} (r : Fin n → ℝ) : 0 < cN r := lt_max_of_lt_right epsR_pos

theorem sumsq_nonneg {n : Nat} (r : Fin n → ℝ) : 0 ≤ ∑ k, r k * r k :=
  Finset.sum_nonneg fun k _ => mul_self_nonneg (r k)

theorem clipNorm_coe {n : Nat} (r : Fin n → ℝ) : clipNorm (fun k => (r k : EReal)) = (cN r : EReal) := by
  unfold clipNorm cN
  rw [sum_mul_coe, Ideal.sqrt_coe, if_neg (not_lt.mpr (sumsq_nonneg r)), eps_eq, coe_max']

theorem refUnit_coe {n : Nat} (r : Fin n → ℝ) (k : Fin n) :
    refUnit (fun k => (r k : EReal)) k = ((r k * (1 / cN r) : ℝ) : EReal) := by
  unfold refUnit
  rw [clipNorm_coe, Ideal.div_coe (cN_pos r).ne', EReal.coe_mul]

theorem unitRows_coe {a n : Nat} (m : Fin a → Fin n → ℝ) (j : Fin a) (k : Fin n) :
    unitRows (fun j k => (m j k : EReal)) j k = ((m j k * (1 / cN (m j)) : ℝ) : EReal) := by
  unfold unitRows
  rw [clipNorm_coe, Ideal.div_coe (cN_pos (m j)).ne', EReal.coe_mul]

/-- The square root of the floored square sum is the floored norm. -/
theorem sqrt_max_sq {n : Nat} (r : Fin n → ℝ) :
    Real.sqrt (max (∑ k, r k * r k) (epsR ^ 2)) = cN r := by
  unfold cN
  rw [Real.sqrt_monotone.map_max, Real.sqrt_sq epsR_pos.le]

theorem kerUnit_coe {n : Nat} (r : Fin n → ℝ) (k : Fin n) :
    kerUnit (fun k => (r k : EReal)) k = ((r k * (1 / cN r) : ℝ) : EReal) := by
  unfold kerUnit
  have hpos : 0 < max (∑ k, r k * r k) (epsR ^ 2) := lt_max_of_lt_right (pow_pos epsR_pos 2)
  rw [sum_mul_coe, epsSq_eq, ← coe_max', Ideal.rsqrt_coe, if_neg (not_lt.mpr hpos.le), if_neg hpos.ne',
    sqrt_max_sq, EReal.coe_mul, one_div]

/-- The common similarities of a real unit row to a real bank, over the temperature. -/
def sR {a n : Nat} (u : Fin n → ℝ) (b : Fin a → Fin n → ℝ) (j : Fin a) : ℝ := (∑ k, u k * b j k) * (1 / tauR)

theorem refSim_coe {a n : Nat} (u : Fin n → ℝ) (b : Fin a → Fin n → ℝ) (j : Fin a) :
    refSim (fun k => (u k : EReal)) (fun j k => (b j k : EReal)) j = (sR u b j : EReal) := by
  unfold refSim sR
  rw [sum_mul_coe, tau_eq, Ideal.div_coe tauR_pos.ne', EReal.coe_mul]

theorem kerSim_coe {a n : Nat} (u : Fin n → ℝ) (b : Fin a → Fin n → ℝ) (j : Fin a) :
    kerSim (fun k => (u k : EReal)) (fun j k => (b j k : EReal)) j = (sR u b j : EReal) := by
  unfold kerSim sR
  rw [sum_mul_coe, invTau_eq, EReal.coe_mul]

/-- The maximum of a nonempty row of reals is a real. -/
theorem rowMax_real {a : Nat} (ha : 0 < a) (s : Fin a → ℝ) :
    ∃ c : ℝ, rowMax (fun j => (s j : EReal)) = (c : EReal) := by
  unfold rowMax negInf
  rw [Consts.ofBits_negInf, max_eq_right bot_le]
  have h1 : (Finset.univ : Finset (Fin a)).fold max ⊥ (fun j => (s j : EReal)) ≠ ⊥ := by
    have h : ((s ⟨0, ha⟩ : ℝ) : EReal) ≤ (Finset.univ : Finset (Fin a)).fold max ⊥ (fun j => (s j : EReal)) :=
      (Finset.le_fold_max _).mpr (Or.inr ⟨⟨0, ha⟩, Finset.mem_univ _, le_rfl⟩)
    intro hb
    rw [hb] at h
    exact absurd h (not_le.mpr (EReal.bot_lt_coe _))
  have h2 : (Finset.univ : Finset (Fin a)).fold max ⊥ (fun j => (s j : EReal)) ≠ ⊤ :=
    ((Finset.fold_max_lt _).mpr ⟨bot_lt_top, fun j _ => EReal.coe_lt_top _⟩).ne
  exact ⟨_, (EReal.coe_toReal h2 h1).symm⟩

theorem expsum_pos {a : Nat} (ha : 0 < a) (s : Fin a → ℝ) (c : ℝ) : 0 < ∑ j, Real.exp (s j - c) :=
  Finset.sum_pos (fun j _ => Real.exp_pos _) ⟨⟨0, ha⟩, Finset.mem_univ _⟩

theorem weights_coe {a : Nat} (ha : 0 < a) (s : Fin a → ℝ) (c : ℝ) (j : Fin a) :
    weights (fun j => (s j : EReal)) (c : EReal) j
      = ((Real.exp (s j - c) * (1 / ∑ j', Real.exp (s j' - c)) : ℝ) : EReal) := by
  unfold weights
  have h : ∀ j', Ideal.exp ((s j' : EReal) - (c : EReal)) = ((Real.exp (s j' - c) : ℝ) : EReal) := by
    intro j'; rw [← EReal.coe_sub, Ideal.exp_coe]
  simp only [h]
  rw [← coe_sum, Ideal.div_coe (expsum_pos ha s c).ne', EReal.coe_mul]

/-- Softmax weights do not depend on the shift under the exponential. -/
theorem shift_inv {a : Nat} (ha : 0 < a) (s : Fin a → ℝ) (c c' : ℝ) (j : Fin a) :
    Real.exp (s j - c) * (1 / ∑ j', Real.exp (s j' - c))
      = Real.exp (s j - c') * (1 / ∑ j', Real.exp (s j' - c')) := by
  have h : ∀ i, Real.exp (s i - c) = Real.exp (s i - c') * Real.exp (c' - c) := by
    intro i; rw [← Real.exp_add]; congr 1; ring
  simp only [h]
  rw [← Finset.sum_mul]
  have hp : (∑ j', Real.exp (s j' - c')) ≠ 0 := (expsum_pos ha s c').ne'
  have he : Real.exp (c' - c) ≠ 0 := (Real.exp_pos _).ne'
  field_simp

/-- On rows of real numbers (every entry of the token row and of the memory bank finite) the kernel's spelling and the
    reference's spelling of one output row agree. -/
theorem kerRow_eq_refRow {a n : Nat} (ha : 0 < a) (x : Fin n → EReal) (mb : Fin a → Fin n → EReal)
    (hx : ∀ k, ∃ r : ℝ, x k = (r : EReal)) (hmb : ∀ j k, ∃ r : ℝ, mb j k = (r : EReal)) (k : Fin n) :
    kerRow x (unitRows mb) k = refRow x (unitRows mb) k := by
  choose xr hxr using hx
  choose mr hmr using hmb
  have hx' : x = fun k => (xr k : EReal) := funext hxr
  have hmb' : mb = fun j k => (mr j k : EReal) := funext fun j => funext fun k => hmr j k
  subst hx' hmb'
  have hbank : unitRows (fun j k => (mr j k : EReal))
      = fun j k => ((mr j k * (1 / cN (mr j)) : ℝ) : EReal) :=
    funext fun j => funext fun k => unitRows_coe mr j k
  have hku : kerUnit (fun k => (xr k : EReal)) = fun k => ((xr k * (1 / cN xr) : ℝ) : EReal) :=
    funext (kerUnit_coe xr)
  have hru : refUnit (fun k => (xr k : EReal)) = fun k => ((xr k * (1 / cN xr) : ℝ) : EReal) :=
    funext (refUnit_coe xr)
  unfold kerRow refRow
  rw [hbank, hku, hru]
  have hks : kerSim (fun k => ((xr k * (1 / cN xr) : ℝ) : EReal)) (fun j k => ((mr j k * (1 / cN (mr j)) : ℝ) : EReal))
      = fun j => (sR (fun k => xr k * (1 / cN xr)) (fun j k => mr j k * (1 / cN (mr j))) j : EReal) :=
    funext (kerSim_coe _ _)
  have hrs : refSim (fun k => ((xr k * (1 / cN xr) : ℝ) : EReal)) (fun j k => ((mr j k * (1 / cN (mr j)) : ℝ) : EReal))
      = fun j => (sR (fun k => xr k * (1 / cN xr)) (fun j k => mr j k * (1 / cN (mr j))) j : EReal) :=
    funext (refSim_coe _ _)
  rw [hks, hrs]
  obtain ⟨c, hc⟩ := rowMax_real ha (sR (fun k => xr k * (1 / cN xr)) (fun j k => mr j k * (1 / cN (mr j))))
  rw [hc, invTau_eq]
  have hw : weights (fun j => (sR (fun k => xr k * (1 / cN xr)) (fun j k => mr j k * (1 / cN (mr j))) j : EReal))
        ((1 / tauR : ℝ) : EReal)
      = weights (fun j => (sR (fun k => xr k * (1 / cN xr)) (fun j k => mr j k * (1 / cN (mr j))) j : EReal))
        (c : EReal) := by
    funext j
    rw [weights_coe ha, weights_coe ha, shift_inv ha]
  rw [hw]

end Cert.Ema

end
-- ==== Proof.RefRow.lean ====
/- The reference's result, read at an index. -/
import proofs.«174589_g85598698209303_cont_9to1_m_192_12_alg».proof.Proof.Spec
import proofs.«174589_g85598698209303_cont_9to1_m_192_12_alg».proof.Proof.Consts
import proofs.«174589_g85598698209303_cont_9to1_m_192_12_alg».proof.Proof.Gen.ReferenceIdeal.Read
import Idealize.ShloMosaic.Lib.ValueIdx
import Idealize.ShloMosaic.Lib.Pipeline.Value
import Idealize.ShloMosaic.PureOps.Ideal.Laws

noncomputable section

namespace Cert.Ema

open Idealize.ShloMosaic Idealize.ShloMosaic.ValueIdx Cert.ReferenceIdeal Cert.ReferenceIdeal.Gen

/-- The row of the flattened token array that holds token (b, s). -/
private abbrev tokRow (b : Fin 16) (s : Fin 4096) : Fin 65536 :=
  ⟨b.val * 4096 + s.val, by have := b.isLt; have := s.isLt; omega⟩

/-- The token array divided by its rows' floored norms, at (b, s, k): entry k of the token's normalised row. -/
private theorem v7_at (x0 : (⟨S16x4096x128, .f32⟩ : BufTy).Contents (Elt Ideal)) (b : Fin 16) (s : Fin 4096) (k : Fin 128) :
    Read.val_main_v7 (F := Ideal) x0 (ix3 b s k) = refUnit (fun k' => x0 (ix3 b s k')) k := by
  rw [Read.val_main_v7_apply, Read.val_main_v6_apply, Read.val_main_v5_apply, Read.val_main_v3_apply,
    Read.val_main_v2_apply, Read.val_main_v1_apply, Read.val_main_v4_apply, Read.val_main_cst_0_apply,
    Read.val_main_cst_apply]
  have e : ∀ k' : Fin 128, Read.idx_main_v1 (Read.idx_main_v2 (Read.idx_main_v6 (ix3 b s k))) k' = ix3 b s k' :=
    fun k' => funext fun a => Fin.ext (by match a with | ⟨0, _⟩ => rfl | ⟨1, _⟩ => rfl | ⟨2, _⟩ => rfl)
  simp only [e, Read.val_main_v0_apply, Ideal.mulf_def, Ideal.hostDivf_def, Ideal.maximumf_def,
    Ideal.hostUnary_sqrt_def, Ideal.ofBits_def, Consts.ofBits_zero, zero_add]
  rfl

/-- The flattened normalised tokens, at (row of (b, s), k). -/
private theorem v8_at (x0 : (⟨S16x4096x128, .f32⟩ : BufTy).Contents (Elt Ideal)) (b : Fin 16) (s : Fin 4096) (k : Fin 128) :
    Read.val_main_v8 (F := Ideal) x0 (ix2 (tokRow b s) k) = refUnit (fun k' => x0 (ix3 b s k')) k := by
  rw [Read.val_main_v8_apply]
  have e : Read.idx_main_v8 (ix2 (tokRow b s) k) = ix3 b s k := funext fun a => Fin.ext (by
    have hb := b.isLt; have hs := s.isLt; have hk := k.isLt
    match a with
    | ⟨0, _⟩ => show ((b.val * 4096 + s.val) * 128 + k.val) / 524288 = b.val; omega
    | ⟨1, _⟩ => show ((b.val * 4096 + s.val) * 128 + k.val) / 128 % 4096 = s.val; omega
    | ⟨2, _⟩ => show ((b.val * 4096 + s.val) * 128 + k.val) % 128 = k.val; omega)
  rw [e, v7_at]

/-- The memory bank divided by its rows' floored norms, at (j, k). -/
private theorem v16_at (x1 : (⟨S64x128, .f32⟩ : BufTy).Contents (Elt Ideal)) (j : Fin 64) (k : Fin 128) :
    Read.val_main_v16 (F := Ideal) x1 (ix2 j k) = unitRows (fun j' k' => x1 (ix2 j' k')) j k := by
  rw [Read.val_main_v16_apply, Read.val_main_v15_apply, Read.val_main_v14_apply, Read.val_main_v12_apply,
    Read.val_main_v11_apply, Read.val_main_v10_apply, Read.val_main_v13_apply, Read.val_main_cst_2_apply,
    Read.val_main_cst_1_apply]
  have e : ∀ k' : Fin 128, Read.idx_main_v10 (Read.idx_main_v11 (Read.idx_main_v15 (ix2 j k))) k' = ix2 j k' :=
    fun k' => funext fun a => Fin.ext (by match a with | ⟨0, _⟩ => rfl | ⟨1, _⟩ => rfl)
  simp only [e, Read.val_main_v9_apply, Ideal.mulf_def, Ideal.hostDivf_def, Ideal.maximumf_def,
    Ideal.hostUnary_sqrt_def, Ideal.ofBits_def, Consts.ofBits_zero, zero_add]
  rfl

/-- The similarities over the temperature, at (row of (b, s), j). -/
private theorem v20_at (x0 : (⟨S16x4096x128, .f32⟩ : BufTy).Contents (Elt Ideal)) (x1 : (⟨S64x128, .f32⟩ : BufTy).Contents (Elt Ideal))
    (b : Fin 16) (s : Fin 4096) (j : Fin 64) :
    Read.val_main_v20 (F := Ideal) x0 x1 (ix2 (tokRow b s) j)
      = refSim (refUnit fun k' => x0 (ix3 b s k')) (unitRows fun j' k' => x1 (ix2 j' k')) j := by
  rw [Read.val_main_v20_apply, Read.val_main_v18_apply, Read.val_main_v19_apply, Read.val_main_cst_3_apply]
  have el : ∀ k : Fin 128, Read.lidx_main_v18 (ix2 (tokRow b s) j) k = ix2 (tokRow b s) k :=
    fun k => funext fun a => Fin.ext (by match a with | ⟨0, _⟩ => rfl | ⟨1, _⟩ => rfl)
  have er : ∀ k : Fin 128, Read.idx_main_v17 (Read.ridx_main_v18 (ix2 (tokRow b s) j) k) = ix2 j k :=
    fun k => funext fun a => Fin.ext (by match a with | ⟨0, _⟩ => rfl | ⟨1, _⟩ => rfl)
  simp only [Read.val_main_v17_apply, el, er, v8_at, v16_at, Ideal.hostDivf_def, Ideal.ofBits_def]
  rfl

/-- The reduced index (row) with column j put back is (row, j). -/
private theorem lift_row (h : S65536x64.Reduces [1] S65536) (r : Fin 65536) (j : Fin (S65536x64.size 1)) :
    h.lift (ix1 r) j = ix2 r (⟨j.val, j.isLt⟩ : Fin 64) :=
  funext fun c => Fin.ext (by match c with | ⟨0, _⟩ => rfl | ⟨1, _⟩ => rfl)

/-- The row maximum as the reduce computes it, at the row of (b, s): the fold of max from -inf over the 64 similarities. -/
private theorem v21_at (x0 : (⟨S16x4096x128, .f32⟩ : BufTy).Contents (Elt Ideal)) (x1 : (⟨S64x128, .f32⟩ : BufTy).Contents (Elt Ideal))
    (b : Fin 16) (s : Fin 4096) :
    Read.val_main_v21 (F := Ideal) x0 x1 (ix1 (tokRow b s))
      = (Finset.univ : Finset (Fin 64)).fold max negInf
          (refSim (refUnit fun k' => x0 (ix3 b s k')) (unitRows fun j' k' => x1 (ix2 j' k'))) := by
  have h : S65536x64.Reduces [1] S65536 := by decide
  unfold Read.val_main_v21
  rw [Host.reduce_eq_fold_single FloatOps.maximumf _ _ reducesTo_S65536x64_S65536_d1 h h_S_]
  have hf : (Read.val_main_v20 (F := Ideal) x0 x1 ∘ h.lift (ix1 (tokRow b s)))
      = refSim (refUnit fun k' => x0 (ix3 b s k')) (unitRows fun j' k' => x1 (ix2 j' k')) :=
    funext fun j => by
      show Read.val_main_v20 (F := Ideal) x0 x1 (h.lift (ix1 (tokRow b s)) j) = _
      rw [lift_row h (tokRow b s) j]
      exact v20_at x0 x1 b s _
  rw [hf]
  rfl

/-- The shift under the exponential, at the row of (b, s). -/
private theorem v23_at (x0 : (⟨S16x4096x128, .f32⟩ : BufTy).Contents (Elt Ideal)) (x1 : (⟨S64x128, .f32⟩ : BufTy).Contents (Elt Ideal))
    (b : Fin 16) (s : Fin 4096) :
    Read.val_main_v23 (F := Ideal) x0 x1 (ix1 (tokRow b s))
      = rowMax (refSim (refUnit fun k' => x0 (ix3 b s k')) (unitRows fun j' k' => x1 (ix2 j' k'))) := by
  rw [Read.val_main_v23_apply, Read.val_main_v22_apply, Read.val_main_cst_5_apply, v21_at]
  rfl

/-- The exponentials of the shifted similarities, at (row of (b, s), j). -/
private theorem v27_at (x0 : (⟨S16x4096x128, .f32⟩ : BufTy).Contents (Elt Ideal)) (x1 : (⟨S64x128, .f32⟩ : BufTy).Contents (Elt Ideal))
    (b : Fin 16) (s : Fin 4096) (j : Fin 64) :
    Read.val_main_v27 (F := Ideal) x0 x1 (ix2 (tokRow b s) j)
      = Ideal.exp (refSim (refUnit fun k' => x0 (ix3 b s k')) (unitRows fun j' k' => x1 (ix2 j' k')) j
          - rowMax (refSim (refUnit fun k' => x0 (ix3 b s k')) (unitRows fun j' k' => x1 (ix2 j' k')))) := by
  rw [Read.val_main_v27_apply, Read.val_main_v26_apply, Read.val_main_v25_apply, Read.val_main_v24_apply, v20_at]
  have e : Read.idx_main_v24 (Read.idx_main_v25 (ix2 (tokRow b s) j)) = ix1 (tokRow b s) :=
    funext fun a => Fin.ext (by match a with | ⟨0, _⟩ => rfl)
  rw [e, v23_at]
  rfl

/-- The softmax weights, at (row of (b, s), j). -/
private theorem v31_at (x0 : (⟨S16x4096x128, .f32⟩ : BufTy).Contents (Elt Ideal)) (x1 : (⟨S64x128, .f32⟩ : BufTy).Contents (Elt Ideal))
    (b : Fin 16) (s : Fin 4096) (j : Fin 64) :
    Read.val_main_v31 (F := Ideal) x0 x1 (ix2 (tokRow b s) j)
      = weights (refSim (refUnit fun k' => x0 (ix3 b s k')) (unitRows fun j' k' => x1 (ix2 j' k')))
          (rowMax (refSim (refUnit fun k' => x0 (ix3 b s k')) (unitRows fun j' k' => x1 (ix2 j' k')))) j := by
  rw [Read.val_main_v31_apply, Read.val_main_v30_apply, Read.val_main_v29_apply, Read.val_main_v28_apply,
    Read.val_main_cst_6_apply, v27_at]
  have e : ∀ j' : Fin 64, Read.idx_main_v28 (Read.idx_main_v29 (Read.idx_main_v30 (ix2 (tokRow b s) j))) j'
      = ix2 (tokRow b s) j' :=
    fun j' => funext fun a => Fin.ext (by match a with | ⟨0, _⟩ => rfl | ⟨1, _⟩ => rfl)
  simp only [e, v27_at, Ideal.hostDivf_def, Ideal.ofBits_def, Consts.ofBits_zero, zero_add]
  rfl

/-- Entry (b, s, k) of the reference's result is entry k of the reference's output row of token (b, s), against the memory
    bank normalised. -/
theorem ref_apply (x0 : (⟨S16x4096x128, .f32⟩ : BufTy).Contents (Elt Ideal)) (x1 : (⟨S64x128, .f32⟩ : BufTy).Contents (Elt Ideal))
    (b : Fin 16) (s : Fin 4096) (k : Fin 128) :
    Cert.ReferenceIdeal.Read.val_main_v34 (F := Ideal) x0 x1 (ix3 b s k)
      = refRow (fun k' => x0 (ix3 b s k')) (unitRows fun j k' => x1 (ix2 j k')) k := by
  rw [Read.val_main_v34_apply]
  have e : Read.idx_main_v34 (ix3 b s k) = ix2 (tokRow b s) k := funext fun a => Fin.ext (by
    have hb := b.isLt; have hs := s.isLt; have hk := k.isLt
    match a with
    | ⟨0, _⟩ => show ((b.val * 4096 + s.val) * 128 + k.val) / 128 = b.val * 4096 + s.val; omega
    | ⟨1, _⟩ => show ((b.val * 4096 + s.val) * 128 + k.val) % 128 = k.val; omega)
  rw [e, Read.val_main_v33_apply, Read.val_main_v32_apply, v8_at]
  have el : ∀ j : Fin 64, Read.lidx_main_v32 (ix2 (tokRow b s) k) j = ix2 (tokRow b s) j :=
    fun j => funext fun a => Fin.ext (by match a with | ⟨0, _⟩ => rfl | ⟨1, _⟩ => rfl)
  have er : ∀ j : Fin 64, Read.ridx_main_v32 (ix2 (tokRow b s) k) j = ix2 j k :=
    fun j => funext fun a => Fin.ext (by match a with | ⟨0, _⟩ => rfl | ⟨1, _⟩ => rfl)
  simp only [el, er, v31_at, v16_at, Ideal.addf_def]
  rfl

end Cert.Ema

end
-- ==== Proof.Finite.lean ====
/- The precondition, read: every entry of both argument arrays is a real number. -/
import proofs.«174589_g85598698209303_cont_9to1_m_192_12_alg».proof.Defs
import proofs.«174589_g85598698209303_cont_9to1_m_192_12_alg».proof.Proof.Gen.Pre_finite_inputs
import Idealize.ShloMosaic.Lib.ReduceAll
import Idealize.ShloMosaic.Lib.ValueIdx
import Idealize.ShloMosaic.PureOps.Ideal.Laws

noncomputable section

namespace Cert.Ema

open Idealize.ShloMosaic

/-- The word of plus infinity denotes the top of the extended reals. -/
theorem ofBits_posInf : Ideal.ofBits .f32 0x7F800000#32 = (⊤ : EReal) := by
  simp [Ideal.ofBits, Ideal.ieee]

/-- An extended real whose absolute value lies strictly below plus infinity is a real number:
    at minus infinity the absolute value is plus infinity, and so it is at plus infinity. -/
theorem real_of_abs_lt_top (x : EReal) (hx : max x (-x) < ⊤) : ∃ r : ℝ, x = (r : EReal) := by
  induction x using EReal.rec with
  | bot => simp at hx
  | coe r => exact ⟨r, rfl⟩
  | top => simp at hx

/-- The element fact: when the ordered comparison of an entry's absolute value with plus infinity
    answers true, the entry is a real number. -/
theorem real_of_cmp (x : Ideal .f32)
    (e : FloatOps.cmpf .olt (FloatOps.hostAbsf x) (FloatOps.ofBits (F := Ideal) .f32 0x7F800000#32) = 1#1) :
    ∃ r : ℝ, x = (r : EReal) := by
  rw [Ideal.hostAbsf_def, Ideal.absf_def, Ideal.cmpf_def, Ideal.ofBits_def, ofBits_posInf] at e
  unfold Ideal.cmp at e
  refine real_of_abs_lt_top x ?_
  by_contra hn
  simp [hn] at e

/-- If the printed finiteness predicate answers true on two arrays, every entry of each is a real number. -/
theorem real_of_fn [Cert.Pre_finite_inputs.Facts] (x0 : FVec Ideal Cert.Pre_finite_inputs.S16x4096x128 .f32)
    (x1 : FVec Ideal Cert.Pre_finite_inputs.S64x128 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  -- the rank-zero result has one index only
  haveI : Subsingleton Cert.Pre_finite_inputs.S_.Idx := ⟨fun a b => funext fun d => d.elim0⟩
  have h0 := congrFun h ValueIdx.ix0
  dsimp only [Cert.Pre_finite_inputs.fn] at h0
  -- the conjunction of the two reductions is true, so each reduction is
  obtain ⟨ha, hb⟩ := IntOp.andi_eq_one.1 h0
  constructor
  · intro i
    -- a conjunction over all axes that is true is true at every index
    have e := Host.reduce_andi_all _ _ _ _ _ ha i
    exact real_of_cmp (x0 i) e
  · intro i
    have e := Host.reduce_andi_all _ _ _ _ _ hb i
    exact real_of_cmp (x1 i) e

end Cert.Ema

end
-- ==== Proof.Bridge.lean ====
/- The two whole-array functions meet: on finite arguments the kernel's array function is the reference's, and the reference's
   result array is that function. -/
import proofs.«174589_g85598698209303_cont_9to1_m_192_12_alg».proof.Proof.RowMath
import proofs.«174589_g85598698209303_cont_9to1_m_192_12_alg».proof.Proof.RefRow
import proofs.«174589_g85598698209303_cont_9to1_m_192_12_alg».proof.Proof.Finite
import Idealize.ShloMosaic.Lib.ValueIdx

noncomputable section

namespace Cert.Ema

open Idealize.ShloMosaic Idealize.ShloMosaic.ValueIdx

/-- On arrays of real numbers the kernel's spelling of the result array is the reference's, row by row. -/
theorem kerResult_eq_result (x : (⟨3, ![16, 4096, 128]⟩ : Shape).Idx → EReal) (mb : (⟨2, ![64, 128]⟩ : Shape).Idx → EReal)
    (hx : ∀ i, ∃ r : ℝ, x i = (r : EReal)) (hmb : ∀ i, ∃ r : ℝ, mb i = (r : EReal)) :
    kerResult x mb = result x mb :=
  funext fun i => kerRow_eq_refRow (by norm_num) _ _ (fun k => hx _) (fun j k => hmb _) _

/-- The reference's result stage is the result array, index by index. -/
theorem ref_result (x0 : (⟨Cert.ReferenceIdeal.S16x4096x128, .f32⟩ : BufTy).Contents (Elt Ideal))
    (x1 : (⟨Cert.ReferenceIdeal.S64x128, .f32⟩ : BufTy).Contents (Elt Ideal)) :
    Cert.ReferenceIdeal.Read.val_main_v34 (F := Ideal) x0 x1 = result x0 x1 := by
  funext i
  obtain ⟨b, s, k, rfl⟩ : ∃ (b : Fin 16) (s : Fin 4096) (k : Fin 128), i = ix3 b s k := ⟨i 0, i 1, i 2, eq_ix3 i⟩
  exact ref_apply x0 x1 b s k

end Cert.Ema

end
-- ==== Proof.lean ====
/- The proof of `Cert.Claim`: a token-attention kernel (each token's feature row is L2-normalised, attends by softmax over a
   64-row memory bank that is normalised the same way, and the retrieved row is added back) against its jnp reference, over
   the extended reals.

   The kernel differs from the reference in three spellings. It normalises a row by x * rsqrt(max(sum x^2, eps^2)) where the
   reference writes x / max(sqrt(sum x^2), eps): one function, since the square root is monotone and eps^2 is named exactly the
   square of the reference's eps. It multiplies the similarities by the reciprocal of the temperature, named exactly that
   reciprocal, where the reference divides. And under the exponential it subtracts the constant 1/temperature where the
   reference subtracts the row maximum: softmax weights do not depend on a finite shift. All three need the inputs finite.
   The row sums the kernel takes by a matrix product with a matrix of ones are plain sums.

   Spec states a row's result in both spellings; KernelRow reads the kernel body's stored value at an index; KernelArray carries
   it from blocks to the whole array; RefRow reads the reference's result at an index; RowMath joins the two spellings on finite
   rows; Finite reads the precondition. The frames are the generated ones, the reference's its generated run. -/
import proofs.«174589_g85598698209303_cont_9to1_m_192_12_alg».proof.Defs
import proofs.«174589_g85598698209303_cont_9to1_m_192_12_alg».proof.Proof.Gen.Kernel
import proofs.«174589_g85598698209303_cont_9to1_m_192_12_alg».proof.Proof.Gen.Kernel.Skeleton
import proofs.«174589_g85598698209303_cont_9to1_m_192_12_alg».proof.Proof.Gen.Kernel.Launch
import proofs.«174589_g85598698209303_cont_9to1_m_192_12_alg».proof.Proof.Gen.Kernel.Points
import proofs.«174589_g85598698209303_cont_9to1_m_192_12_alg».proof.Proof.Gen.Kernel.Frame
import proofs.«174589_g85598698209303_cont_9to1_m_192_12_alg».proof.Proof.Gen.KernelIdeal
import proofs.«174589_g85598698209303_cont_9to1_m_192_12_alg».proof.Proof.Gen.KernelIdeal.Skeleton
import proofs.«174589_g85598698209303_cont_9to1_m_192_12_alg».proof.Proof.Gen.KernelIdeal.Launch
import proofs.«174589_g85598698209303_cont_9to1_m_192_12_alg».proof.Proof.Gen.KernelIdeal.Points
import proofs.«174589_g85598698209303_cont_9to1_m_192_12_alg».proof.Proof.Gen.KernelIdeal.Frame
import proofs.«174589_g85598698209303_cont_9to1_m_192_12_alg».proof.Proof.Gen.ReferenceIdeal
import proofs.«174589_g85598698209303_cont_9to1_m_192_12_alg».proof.Proof.Gen.Pre_finite_inputs
import proofs.«174589_g85598698209303_cont_9to1_m_192_12_alg».proof.Proof.Gen.KernelIdeal.Value
import proofs.«174589_g85598698209303_cont_9to1_m_192_12_alg».proof.Proof.Gen.ReferenceIdeal.Run
import proofs.«174589_g85598698209303_cont_9to1_m_192_12_alg».proof.Proof.Gen.ReferenceIdeal.Read
import proofs.«174589_g85598698209303_cont_9to1_m_192_12_alg».proof.Proof.KernelArray
import proofs.«174589_g85598698209303_cont_9to1_m_192_12_alg».proof.Proof.Bridge
import Idealize.ShloMosaic.PureOps.IdealRules
import Idealize.ShloMosaic.Adequacy
import Idealize.ShloMosaic.Init

noncomputable section

namespace Cert.Proof

open Idealize.ShloMosaic Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference has no kernel: its frame is its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- The table gives eps^2 and 1/temperature their exact values, at each of the three sites that print a name. -/
theorem preserves : Cert.preserves_Kernel_KernelIdeal :=
  ⟨IdealRules.named_const.statement Cert.KernelIdeal.κ "eps_squared" .f32 0x179ABE15#32
      ((5316911940649 / 5316911983139663491615228241121378304 : ℝ) : EReal) rfl,
   IdealRules.named_const.statement Cert.KernelIdeal.κ "inv_temperature" .f32 0x41649249#32
      ((134217728 / 9395241 : ℝ) : EReal) rfl,
   IdealRules.named_const.statement Cert.KernelIdeal.κ "inv_temperature" .f32 0x41649249#32
      ((134217728 / 9395241 : ℝ) : EReal) rfl⟩

/-- Both programs end with the result array at the same function of the (agreeing, finite) arguments. -/
theorem algebraic : Cert.algebraic_KernelIdeal_ReferenceIdeal := by
  intro m ρ m' ρ' hpre hagree
  refine ⟨fun c => Cert.Ema.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.Ema.KernelArray.run m ρ)
    obtain ⟨hx, hmb⟩ := Cert.Ema.real_of_fn _ _ (hpre c)
    exact Cert.Ema.kerResult_eq_result _ _ hx hmb
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, Cert.Ema.ref_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
